-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x256 .f32) (main_arg3 : FVec F S128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S10000 : Shape := ⟨1, ![10000]⟩
abbrev S10000x1 : Shape := ⟨2, ![10000, 1]⟩

abbrev nBuf : Space → Nat
  | .hbm => 12
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | .local _ .vmem, ⟨11, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S128x256_S128x128_0_0 : S128x256.Slices ![0, 0] S128x128
  slices_S128x256_S128x128_0_128 : S128x256.Slices ![0, 128] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩
abbrev S10000 : Shape := ⟨1, ![10000]⟩
abbrev S10000x1 : Shape := ⟨2, ![10000, 1]⟩
abbrev S1x128 : Shape := ⟨2, ![1, 128]⟩
abbrev S10000x256 : Shape := ⟨2, ![10000, 256]⟩
abbrev S256x128 : Shape := ⟨2, ![256, 128]⟩

abbrev nBuf : Space → Nat
  | .hbm => 61
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S_, .i32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S10000x1, .f32⟩
  | .hbm, ⟨35, _⟩ => ⟨S10000x1, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x256, .f32⟩
  | .hbm, ⟨52, _⟩ => ⟨S256x128, .f32⟩
  | .hbm, ⟨53, _⟩ => ⟨S10000x128, .f32⟩
  | .hbm, ⟨54, _⟩ => ⟨S1x128, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .f32⟩
  | .hbm, ⟨60, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call1_cst : Ref sig .tc := ⟨.hbm, 57, rfl⟩
abbrev main_call1_v0 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The mathematics of the layer, stated once over the extended reals with no program in sight.

  For a feature matrix X (10000 rows of 128), an adjacency matrix A (10000 by 10000), a weight
  matrix W (128 by 256) and three vectors b, g, beta of length 128:

    mean r      = (sum_k X[r,k]) / 128
    variance r  = (sum_k (X[r,k] - mean r)^2) / 128
    H[r,j]      = (X[r,j] - mean r) * (variance r + eps)^(-1/2) * g[j] + beta[j]
    N[r,k]      = sum_l A[r,l] * H[l,k]
    out[r,j]    = max (sum_k H[r,k] * W[j,k] + sum_k N[r,k] * W[j,128+k] + b[j]) 0 + X[r,j]

  Both programs are shown equal to `out`.  Two laws are proved here because one side divides by a
  square root where the other multiplies by a reciprocal square root, and one side contracts a
  concatenation over 256 columns where the other adds two contractions over 128:
  `div_sqrt_eq_mul_rsqrt` (valid at every strictly positive extended real, the top included) and
  `sum_halves`.  The variance is a sum of squares over a positive number, so adding the positive
  `eps` lands strictly above zero at every input, finite or not.
-/
import Idealize.ShloMosaic.PureOps.Ideal
import Idealize.ShloMosaic.PureOps.Ideal.Laws
import Idealize.ShloMosaic.Lib.ValueIdx

noncomputable section

open scoped BigOperators

namespace Cert.SageLayer

open Idealize.ShloMosaic Idealize.ShloMosaic.ValueIdx

/-- The shapes of the six arguments (the result has the features' shape). -/
abbrev SFeat : Shape := ⟨2, ![10000, 128]⟩
abbrev SAdj : Shape := ⟨2, ![10000, 10000]⟩
abbrev SWgt : Shape := ⟨2, ![128, 256]⟩
abbrev SVec : Shape := ⟨1, ![128]⟩

/-- The row length 128 as both programs spell it. -/
def rowLen : EReal := Ideal.ofBits .f32 0x43000000#32
/-- The stabiliser added to the variance, as both programs spell it. -/
def eps : EReal := Ideal.ofBits .f32 0x3727C5AC#32

theorem rowLen_eq : rowLen = ((128 : ℝ) : EReal) := by
  unfold rowLen
  simp [Ideal.ofBits, Ideal.ieee, -EReal.coe_mul]
  try norm_num

theorem rowLen_pos : 0 < rowLen := by
  rw [rowLen_eq]; exact_mod_cast (by norm_num : (0 : ℝ) < 128)

theorem rowLen_ne_zero : rowLen ≠ 0 := rowLen_pos.ne'

theorem eps_pos : 0 < eps := by
  unfold eps
  simp [Ideal.ofBits, Ideal.ieee, -EReal.coe_mul]
  try positivity

/-- A row's mean. -/
def mean (X : SFeat.Idx → EReal) (r : Fin 10000) : EReal :=
  Ideal.div (∑ k : Fin 128, X (ix2 r k)) rowLen

/-- A row's (biased) variance. -/
def variance (X : SFeat.Idx → EReal) (r : Fin 10000) : EReal :=
  Ideal.div (∑ k : Fin 128, (X (ix2 r k) - mean X r) * (X (ix2 r k) - mean X r)) rowLen

/-- The normalised features, scaled and shifted. -/
def normed (X : SFeat.Idx → EReal) (g β : SVec.Idx → EReal) (r : Fin 10000) (j : Fin 128) : EReal :=
  (X (ix2 r j) - mean X r) * Ideal.rsqrt (variance X r + eps) * g (ix1 j) + β (ix1 j)

/-- The neighbour aggregation. -/
def neigh (X : SFeat.Idx → EReal) (A : SAdj.Idx → EReal) (g β : SVec.Idx → EReal) (r : Fin 10000) (k : Fin 128) : EReal :=
  ∑ l : Fin 10000, A (ix2 r l) * normed X g β l k

/-- Column `k` of the left half of the weights, and of the right half. -/
abbrev colL (k : Fin 128) : Fin 256 := ⟨k.val, by omega⟩
abbrev colR (k : Fin 128) : Fin 256 := ⟨128 + k.val, by omega⟩

/-- The layer's result at row `r`, column `j`. -/
def outAt (X : SFeat.Idx → EReal) (A : SAdj.Idx → EReal) (W : SWgt.Idx → EReal) (b g β : SVec.Idx → EReal)
    (r : Fin 10000) (j : Fin 128) : EReal :=
  max ((∑ k : Fin 128, normed X g β r k * W (ix2 j (colL k))
        + ∑ k : Fin 128, neigh X A g β r k * W (ix2 j (colR k))) + b (ix1 j)) 0 + X (ix2 r j)

/-- The layer's result as an array. -/
def out (X : SFeat.Idx → EReal) (A : SAdj.Idx → EReal) (W : SWgt.Idx → EReal) (b g β : SVec.Idx → EReal) :
    SFeat.Idx → EReal :=
  fun i => outAt X A W b g β (i 0) (i 1)

/-! ## The two laws -/

/-- Dividing by a square root is multiplying by the reciprocal square root, at every strictly positive
    extended real: at the top both sides are `a * 0`, at a positive real both are `a * (√v)⁻¹`. -/
theorem div_sqrt_eq_mul_rsqrt (a v : EReal) (hv : 0 < v) : Ideal.div a (Ideal.sqrt v) = a * Ideal.rsqrt v := by
  induction v using EReal.rec with
  | bot => exact absurd hv (not_lt.mpr bot_le)
  | top =>
    rw [Ideal.sqrt_top, Ideal.rsqrt_top, Ideal.div, if_neg EReal.top_ne_zero, EReal.inv_top]
  | coe r =>
    have hr : 0 < r := EReal.coe_pos.mp hv
    have hs : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hs.ne'), ← EReal.coe_inv]

/-- A sum over 256 columns is the sum over the left 128 plus the sum over the right 128. -/
theorem sum_halves (f : Fin 256 → EReal) :
    ∑ k : Fin 256, f k = ∑ k : Fin 128, f (colL k) + ∑ k : Fin 128, f (colR k) :=
  Fin.sum_univ_add (a := 128) (b := 128) f

/-- A square is never negative on the extended reals. -/
theorem mul_self_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

/-- A nonnegative extended real over the row length is nonnegative. -/
theorem div_rowLen_nonneg {x : EReal} (hx : 0 ≤ x) : 0 ≤ Ideal.div x rowLen := by
  rw [Ideal.div, if_neg rowLen_ne_zero]
  exact mul_nonneg hx (EReal.inv_nonneg_of_nonneg rowLen_pos.le)

theorem variance_nonneg (X : SFeat.Idx → EReal) (r : Fin 10000) : 0 ≤ variance X r :=
  div_rowLen_nonneg (Finset.sum_nonneg fun _ _ => mul_self_nonneg' _)

/-- What the reciprocal square root is taken of is strictly positive. -/
theorem variance_add_eps_pos (X : SFeat.Idx → EReal) (r : Fin 10000) : 0 < variance X r + eps :=
  lt_of_lt_of_le eps_pos (le_add_of_nonneg_left (variance_nonneg X r))

end Cert.SageLayer

end
-- ==== Proof.KernelPieces.lean ====
/-
  The kernel body's arithmetic read at one entry, at the exact values.

  The body has two parts.  At the grid's first point it normalises every row of the feature
  matrix (subtract the row's mean, multiply by the reciprocal square root of the row's variance
  plus a stabiliser, scale and shift by two row vectors) and keeps the result, once in the wide
  format and once narrowed; the narrowing is the identity at the exact values.  At every point it
  takes a block of 400 rows of the adjacency matrix, multiplies it by the kept narrowed matrix,
  multiplies the block's own 400 kept rows by the left half of the weights and the aggregated rows
  by the right half (both contracted along the second axes), adds the bias row, clamps below at
  zero and adds the block's rows of the features.
-/
import proofs.«118912_g17257178596104_cont_sun_c4_603_23_alg».proof.Proof.Gen.KernelIdeal.Skeleton
import proofs.«118912_g17257178596104_cont_sun_c4_603_23_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pieces

open Cert.KernelIdeal Cert.KernelIdeal.Gen Cert.SageLayer Idealize.ShloMosaic Idealize.ShloMosaic.ValueIdx

/-! ## Layout operations of the body read at an entry -/

/-- A vector of length `a` viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over `b` columns reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum along the lanes of a 10000 by 128 matrix reads, at row `r`, the sum of that row's 128 entries. -/
theorem laneSum_apply (v : FVec Ideal S10000x128 .f32) (hφ : FKind.Formats .f32)
    (hacc : (0x00000000#32 : BitVec 32) = 0x00000000#32) (r : Fin 10000) :
    multiReduction (F := Ideal) .add [1] S10000 v 0x00000000#32 reduces_S10000x128_S10000 hφ hacc (ix1 r)
      = ∑ k : Fin 128, v (ix2 r k) := by
  refine (Ideal.multiReduction_add_single v 0x00000000#32 reduces_S10000x128_S10000 hφ hacc (ix1 r)).trans ?_
  refine Finset.sum_congr rfl fun k _ => congrArg v ?_
  funext ax
  match ax with
  | ⟨0, _⟩ => rfl
  | ⟨1, _⟩ => rfl

/-- A reciprocal square root read at an entry. -/
theorem rsqrt_apply {s : Shape} {φ : FTy} (a : FVec Ideal s φ) (i : s.Idx) : rsqrt a i = Ideal.rsqrt (a i) := rfl

/-- The normalised, scaled and shifted features at row `r`, column `j`, from the whole feature
    matrix and the two row vectors as the body loads them. -/
theorem pay1_apply (x : Vec Ideal S10000x128 .f32) (gv bv : Vec Ideal S1x128 .f32) (r : Fin 10000) (j : Fin 128) :
    k0_pay1 (F := Ideal) x gv bv (ix2 r j)
      = (x (ix2 r j) - mean x r) * Ideal.rsqrt (variance x r + eps) * gv (ix2 (0 : Fin 1) j) + bv (ix2 (0 : Fin 1) j) := by
  unfold k0_pay1
  simp only [addf_apply, mulf_apply, subf_apply, divf_apply, rsqrt_apply, broadcast_apply, broadcastTo_a1_ab_apply,
    broadcastTo_1b_ab_apply, shapeCast_self, shapeCast_a_a1_apply]
  rw [laneSum_apply, laneSum_apply]
  simp only [mulf_apply, subf_apply, divf_apply, broadcast_apply, broadcastTo_a1_ab_apply, shapeCast_a_a1_apply]
  rw [laneSum_apply]
  rfl

/-- What is kept in the wide format is that matrix. -/
theorem pay2_apply (x : Vec Ideal S10000x128 .f32) (gv bv : Vec Ideal S1x128 .f32) (r : Fin 10000) (j : Fin 128) :
    k0_pay2 (F := Ideal) x gv bv (ix2 r j)
      = (x (ix2 r j) - mean x r) * Ideal.rsqrt (variance x r + eps) * gv (ix2 (0 : Fin 1) j) + bv (ix2 (0 : Fin 1) j) := by
  unfold k0_pay2
  simp only [shapeCast_self]
  exact pay1_apply x gv bv r j

/-- What is kept narrowed is the same matrix: narrowing is the identity at the exact values. -/
theorem pay3_apply (x : Vec Ideal S10000x128 .f32) (gv bv : Vec Ideal S1x128 .f32) (r : Fin 10000) (j : Fin 128) :
    k0_pay3 (F := Ideal) x gv bv (ix2 r j)
      = (x (ix2 r j) - mean x r) * Ideal.rsqrt (variance x r + eps) * gv (ix2 (0 : Fin 1) j) + bv (ix2 (0 : Fin 1) j) := by
  unfold k0_pay3
  simp only [shapeCast_self, truncf_apply]
  exact pay1_apply x gv bv r j

/-! ## The two contractions of the body read at an entry -/

theorem lhsA_0 (j : S400x128.Idx) (k : dot_S400x10000_S10000x128_S400x128_1_0_0_1_n_n.contr.Idx) :
    (dot_S400x10000_S10000x128_S400x128_1_0_0_1_n_n.lhsIdx j k 0).val = (j 0).val := by
  simp [DotDims.lhsIdx, dot_S400x10000_S10000x128_S400x128_1_0_0_1_n_n]; rfl
theorem lhsA_1 (j : S400x128.Idx) (k : dot_S400x10000_S10000x128_S400x128_1_0_0_1_n_n.contr.Idx) :
    (dot_S400x10000_S10000x128_S400x128_1_0_0_1_n_n.lhsIdx j k 1).val = (k ⟨0, by decide⟩).val :=
  dot_S400x10000_S10000x128_S400x128_1_0_0_1_n_n.lhsIdx_val_of_single rfl j k
theorem rhsA_0 (j : S400x128.Idx) (k : dot_S400x10000_S10000x128_S400x128_1_0_0_1_n_n.contr.Idx) :
    (dot_S400x10000_S10000x128_S400x128_1_0_0_1_n_n.rhsIdx j k 0).val = (k ⟨0, by decide⟩).val :=
  dot_S400x10000_S10000x128_S400x128_1_0_0_1_n_n.rhsIdx_val_of_single rfl j k
theorem rhsA_1 (j : S400x128.Idx) (k : dot_S400x10000_S10000x128_S400x128_1_0_0_1_n_n.contr.Idx) :
    (dot_S400x10000_S10000x128_S400x128_1_0_0_1_n_n.rhsIdx j k 1).val = (j 1).val := by
  simp [DotDims.rhsIdx, dot_S400x10000_S10000x128_S400x128_1_0_0_1_n_n]; rfl

theorem lhsB_0 (j : S400x128.Idx) (k : dot_S400x128_S128x128_S400x128_1_1_0_0_n_n.contr.Idx) :
    (dot_S400x128_S128x128_S400x128_1_1_0_0_n_n.lhsIdx j k 0).val = (j 0).val := by
  simp [DotDims.lhsIdx, dot_S400x128_S128x128_S400x128_1_1_0_0_n_n]; rfl
theorem lhsB_1 (j : S400x128.Idx) (k : dot_S400x128_S128x128_S400x128_1_1_0_0_n_n.contr.Idx) :
    (dot_S400x128_S128x128_S400x128_1_1_0_0_n_n.lhsIdx j k 1).val = (k ⟨0, by decide⟩).val :=
  dot_S400x128_S128x128_S400x128_1_1_0_0_n_n.lhsIdx_val_of_single rfl j k
theorem rhsB_0 (j : S400x128.Idx) (k : dot_S400x128_S128x128_S400x128_1_1_0_0_n_n.contr.Idx) :
    (dot_S400x128_S128x128_S400x128_1_1_0_0_n_n.rhsIdx j k 0).val = (j 1).val := by
  simp [DotDims.rhsIdx, dot_S400x128_S128x128_S400x128_1_1_0_0_n_n]; rfl
theorem rhsB_1 (j : S400x128.Idx) (k : dot_S400x128_S128x128_S400x128_1_1_0_0_n_n.contr.Idx) :
    (dot_S400x128_S128x128_S400x128_1_1_0_0_n_n.rhsIdx j k 1).val = (k ⟨0, by decide⟩).val :=
  dot_S400x128_S128x128_S400x128_1_1_0_0_n_n.rhsIdx_val_of_single rfl j k

/-- The first contraction into zero reads, at `(p, q)`, the sum over `l` of `A (p, l) * B (l, q)`. -/
theorem matA_apply {φ₁ φ₂ : FTy} (A : FVec Ideal S400x10000 φ₁) (B : FVec Ideal S10000x128 φ₂) (p : Fin 400) (q : Fin 128) :
    matmul dot_S400x10000_S10000x128_S400x128_1_0_0_1_n_n none A B (constant (F := Ideal) S400x128 .f32 0x00000000#32) (ix2 p q)
      = ∑ l : Fin 10000, A (ix2 p l) * B (ix2 l q) := by
  show FloatOps.matmul _ none A B _ (ix2 p q) = _
  rw [Ideal.matmul_constant_zero_apply,
    ← Equiv.sum_comp (contrEquiv1 dot_S400x10000_S10000x128_S400x128_1_0_0_1_n_n 10000 rfl rfl).symm]
  refine Finset.sum_congr rfl fun c _ => ?_
  have hc := contrEquiv1_symm_val dot_S400x10000_S10000x128_S400x128_1_0_0_1_n_n 10000 rfl rfl c
  have l2 : dot_S400x10000_S10000x128_S400x128_1_0_0_1_n_n.lhsIdx (ix2 p q)
      ((contrEquiv1 dot_S400x10000_S10000x128_S400x128_1_0_0_1_n_n 10000 rfl rfl).symm c) = ix2 p c := by
    funext ax; apply Fin.ext
    match ax with
    | ⟨0, _⟩ => exact lhsA_0 _ _
    | ⟨1, _⟩ => exact (lhsA_1 _ _).trans hc
  have r2 : dot_S400x10000_S10000x128_S400x128_1_0_0_1_n_n.rhsIdx (ix2 p q)
      ((contrEquiv1 dot_S400x10000_S10000x128_S400x128_1_0_0_1_n_n 10000 rfl rfl).symm c) = ix2 c q := by
    funext ax; apply Fin.ext
    match ax with
    | ⟨0, _⟩ => exact (rhsA_0 _ _).trans hc
    | ⟨1, _⟩ => exact rhsA_1 _ _
  rw [l2, r2]

/-- The second contraction into zero reads, at `(p, q)`, the sum over `k` of `A (p, k) * B (q, k)`. -/
theorem matB_apply {φ₁ φ₂ : FTy} (A : FVec Ideal S400x128 φ₁) (B : FVec Ideal S128x128 φ₂) (p : Fin 400) (q : Fin 128) :
    matmul dot_S400x128_S128x128_S400x128_1_1_0_0_n_n none A B (constant (F := Ideal) S400x128 .f32 0x00000000#32) (ix2 p q)
      = ∑ k : Fin 128, A (ix2 p k) * B (ix2 q k) := by
  show FloatOps.matmul _ none A B _ (ix2 p q) = _
  rw [Ideal.matmul_constant_zero_apply,
    ← Equiv.sum_comp (contrEquiv1 dot_S400x128_S128x128_S400x128_1_1_0_0_n_n 128 rfl rfl).symm]
  refine Finset.sum_congr rfl fun c _ => ?_
  have hc := contrEquiv1_symm_val dot_S400x128_S128x128_S400x128_1_1_0_0_n_n 128 rfl rfl c
  have l2 : dot_S400x128_S128x128_S400x128_1_1_0_0_n_n.lhsIdx (ix2 p q)
      ((contrEquiv1 dot_S400x128_S128x128_S400x128_1_1_0_0_n_n 128 rfl rfl).symm c) = ix2 p c := by
    funext ax; apply Fin.ext
    match ax with
    | ⟨0, _⟩ => exact lhsB_0 _ _
    | ⟨1, _⟩ => exact (lhsB_1 _ _).trans hc
  have r2 : dot_S400x128_S128x128_S400x128_1_1_0_0_n_n.rhsIdx (ix2 p q)
      ((contrEquiv1 dot_S400x128_S128x128_S400x128_1_1_0_0_n_n 128 rfl rfl).symm c) = ix2 q c := by
    funext ax; apply Fin.ext
    match ax with
    | ⟨0, _⟩ => exact rhsB_0 _ _
    | ⟨1, _⟩ => exact (rhsB_1 _ _).trans hc
  rw [l2, r2]

/-- The block's result at its row `p`, column `q`, from the adjacency block `a`, the kept narrowed
    matrix `h16`, the block's kept rows `hb`, the block's feature rows `xb`, the two halves of the
    weights and the bias row. -/
theorem pay4_apply (a : Vec Ideal S400x10000 .f32) (h16 : Vec Ideal S10000x128 .bf16) (hb xb : Vec Ideal S400x128 .f32)
    (w1 w2 : Vec Ideal S128x128 .f32) (bv : Vec Ideal S1x128 .f32) (p : Fin 400) (q : Fin 128) :
    k0_pay4 (F := Ideal) a h16 hb xb w1 w2 bv (ix2 p q)
      = max ((∑ k : Fin 128, hb (ix2 p k) * w1 (ix2 q k)
              + ∑ k : Fin 128, (∑ l : Fin 10000, a (ix2 p l) * h16 (ix2 l k)) * w2 (ix2 q k))
             + bv (ix2 (0 : Fin 1) q)) 0
        + xb (ix2 p q) := by
  have h0 : (Scalar.ofBits (F := Ideal) .f32 0x00000000#32 : Ideal .f32) = (0 : EReal) := Ideal.ofBits_zero_f32
  unfold k0_pay4
  simp only [addf_apply, maximumf_apply, broadcast_apply, broadcastTo_1b_ab_apply, shapeCast_self, matA_apply,
    matB_apply, truncf_apply, h0]

end Cert.KernelIdeal.Pieces

end
-- ==== Proof.KernelCases.lean ====
/-
  What the kernel body leaves behind at a grid point, case by case, and what the kept matrices
  hold after every point.

  At the first point the body normalises the whole feature matrix and keeps it twice (wide and
  narrowed); at the later points it keeps nothing new.  At every point it writes one block of 400
  result rows computed from the point's block of the adjacency matrix, the kept narrowed matrix,
  the point's 400 rows of the kept wide matrix and of the features, the two halves of the weights
  and the bias row.  So after every point the kept matrices are what the first point stored, and
  every point's result block is one and the same function of those and of the point's blocks.
-/
import proofs.«118912_g17257178596104_cont_sun_c4_603_23_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- The 400 rows of a 10000-row matrix that belong to the grid point `i`. -/
abbrev rowsAt {e : EltTy} (i : grid0.Coords) (x : Vec F S10000x128 e) : Vec F S400x128 e :=
  View.ld x (Rect.unit (s := S10000x128) (k0_off1 i) S400x128.size (k0_off1_inb i))

/-- One store of a whole matrix, read back whole, is that matrix. -/
theorem read_one_store {e : EltTy} (v : View sig .tc .vmem S10000x128 e) (w : Vec F S10000x128 e) :
    v.read (Elt F) (v.writes (Elt F) v.junk
      [⟨Rect.unit (s := S10000x128) ![0, 0] S10000x128.size inb_S10000x128_S10000x128_0_0, w⟩]) = w := by
  rw [View.read_writes_eq_canon _ _ _ (fun y => ⟨_, List.mem_singleton_self _, View.mem_set_unit_zero hz inb_S10000x128_S10000x128_0_0 y⟩),
    View.canon_unit_zero hz]

/-- At the first point the wide kept matrix is the normalised features. -/
theorem kept_wide_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .bf16) (harg10 : arg10.IsWhole) (hc0 : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    sout0_A_0 c i arg1 harg1 arg2 harg2 arg3 harg3 arg4 harg4 arg5 harg5 arg6 harg6 arg7 harg7 arg8 harg8 arg9 harg9 arg10 harg10 hc0 x0 x1 x2 x3 x4 x5 x6 = k0_pay2 x1 x2 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S400x10000) hz, View.ld_unit_zero (S := S10000x128) hz, View.ld_unit_zero (S := S128x128) hz, View.ld_unit_zero (S := S1x128) hz, View.readCov_unit_zero (S := S10000x128) _ hz]

/-- At the first point the narrowed kept matrix is the normalised features, narrowed. -/
theorem kept_narrow_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .bf16) (harg10 : arg10.IsWhole) (hc0 : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    sout0_A_1 c i arg1 harg1 arg2 harg2 arg3 harg3 arg4 harg4 arg5 harg5 arg6 harg6 arg7 harg7 arg8 harg8 arg9 harg9 arg10 harg10 hc0 x0 x1 x2 x3 x4 x5 x6 = k0_pay3 x1 x2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S400x10000) hz, View.ld_unit_zero (S := S10000x128) hz, View.ld_unit_zero (S := S128x128) hz, View.ld_unit_zero (S := S1x128) hz, View.readCov_unit_zero (S := S10000x128) _ hz]

/-- The first point's result block: the body reads back what it has just kept. -/
theorem block_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .bf16) (harg10 : arg10.IsWhole) (hc0 : cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) :
    out0_A_7 c i arg1 harg1 arg2 harg2 arg3 harg3 arg4 harg4 arg5 harg5 arg6 harg6 arg7 harg7 arg8 harg8 arg9 harg9 arg10 harg10 hc0 x0 x1 x2 x3 x4 x5 x6
      = k0_pay4 x0 (k0_pay3 x1 x2 x3) (rowsAt i (k0_pay2 x1 x2 x3)) (rowsAt i x1) x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S400x10000) hz, View.ld_unit_zero (S := S10000x128) hz, View.ld_unit_zero (S := S128x128) hz, View.ld_unit_zero (S := S1x128) hz, View.readCov_unit_zero (S := S10000x128) _ hz]
  rw [read_one_store]
  rfl

/-- A later point's result block: the body reads what the point before left kept. -/
theorem block_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .bf16) (harg10 : arg10.IsWhole) (hc0 : ¬cond0_0 i) (x0 : Vec F S400x10000 .f32) (x1 : Vec F S10000x128 .f32) (x2 : Vec F S1x128 .f32) (x3 : Vec F S1x128 .f32) (x4 : Vec F S128x128 .f32) (x5 : Vec F S128x128 .f32) (x6 : Vec F S1x128 .f32) (xs0 : Vec F S10000x128 .f32) (xs1 : Vec F S10000x128 .bf16) :
    out0_B_7 c i arg1 harg1 arg2 harg2 arg3 harg3 arg4 harg4 arg5 harg5 arg6 harg6 arg7 harg7 arg8 harg8 arg9 harg9 arg10 harg10 hc0 x0 x1 x2 x3 x4 x5 x6 xs0 xs1
      = k0_pay4 x0 xs1 (rowsAt i xs0) (rowsAt i x1) x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S400x10000) hz, View.ld_unit_zero (S := S10000x128) hz, View.ld_unit_zero (S := S128x128) hz, View.ld_unit_zero (S := S1x128) hz, View.readCov_unit_zero (S := S10000x128) _ hz]
  rfl

/-! ## Point by point -/

variable (m : (ℓ : Loc nD τ sig) → Buf (Elt F) ℓ)

/-- The input blocks by their literal types: the adjacency block of a point, and the six arrays
    whose one block is the whole array (features, scale row, shift row, the two weight halves,
    the bias row). -/
abbrev adjBlk (c : Dev nD) (t : Fin cfg0.N) : Vec F S400x10000 .f32 := iblk m c 0 t
abbrev featBlk (c : Dev nD) (t : Fin cfg0.N) : Vec F S10000x128 .f32 := iblk m c 1 t
abbrev scaleBlk (c : Dev nD) (t : Fin cfg0.N) : Vec F S1x128 .f32 := iblk m c 2 t
abbrev shiftBlk (c : Dev nD) (t : Fin cfg0.N) : Vec F S1x128 .f32 := iblk m c 3 t
abbrev wLeftBlk (c : Dev nD) (t : Fin cfg0.N) : Vec F S128x128 .f32 := iblk m c 4 t
abbrev wRightBlk (c : Dev nD) (t : Fin cfg0.N) : Vec F S128x128 .f32 := iblk m c 5 t
abbrev biasBlk (c : Dev nD) (t : Fin cfg0.N) : Vec F S1x128 .f32 := iblk m c 6 t

/-- The grid's first point. -/
abbrev t0 : Fin cfg0.N := ⟨0, by rw [show cfg0.N = 25 from N_0]; decide⟩

/-- After EVERY point the kept matrices hold what the first point stored. -/
theorem kept_eq (c : Dev nD) : ∀ (n : ℕ) (h : n < cfg0.N),
    (outsAt0 m c n h).2.1 = k0_pay2 (featBlk m c t0) (scaleBlk m c t0) (shiftBlk m c t0)
    ∧ (outsAt0 m c n h).2.2 = k0_pay3 (featBlk m c t0) (scaleBlk m c t0) (shiftBlk m c t0)
  | 0, h => by
    rw [outsAt0_A m c ⟨0, h⟩ rfl]
    dsimp only
    exact ⟨kept_wide_first .., kept_narrow_first ..⟩
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0 sout0_B_1
    exact kept_eq c n (Nat.lt_of_succ_lt h)

/-- EVERY point's result block is the same function of the point's blocks and the kept matrices. -/
theorem block_eq (c : Dev nD) (t : Fin cfg0.N) :
    (outsAt0 m c t.val t.isLt).1
      = k0_pay4 (adjBlk m c t) (k0_pay3 (featBlk m c t0) (scaleBlk m c t0) (shiftBlk m c t0))
          (rowsAt (grid0.coords t) (k0_pay2 (featBlk m c t0) (scaleBlk m c t0) (shiftBlk m c t0)))
          (rowsAt (grid0.coords t) (featBlk m c t)) (wLeftBlk m c t) (wRightBlk m c t) (biasBlk m c t) := by
  have hN : cfg0.N = 25 := N_0
  by_cases h0 : t.val % 25 = 0
  · have ht : t = t0 := Fin.ext (by have := t.isLt; dsimp only; omega)
    subst ht
    rw [outsAt0_A m c t0 h0]
    dsimp only
    exact block_first ..
  · rw [outsAt0_B m c t h0]
    dsimp only
    rw [block_later]
    have hk := kept_eq m c (t.val - 1) (Nat.lt_of_le_of_lt (Nat.sub_le _ _) t.isLt)
    rw [hk.1, hk.2]

end Cert.KernelIdeal.Cases

end
-- ==== Proof.KernelValue.lean ====
/-
  The kernel's result array, entry by entry, is the layer of the specification.

  Every grid point `t` writes rows 400 t … 400 t + 399 of the result.  Its block is computed from
  the point's 400 rows of the adjacency matrix, the normalised features kept since the first
  point (wide and narrowed: the same numbers at the exact values), the point's own rows of both,
  the left and right halves of the weight matrix (the columns below and from 128), and the bias,
  scale and shift vectors laid out as rows.  Reading each of those at an entry turns the block's
  arithmetic into the specification's formula at row 400 t + p; the 25 blocks tile the 10000
  rows, so the whole array is the specification's.
-/
import proofs.«118912_g17257178596104_cont_sun_c4_603_23_alg».proof.Proof.Gen.KernelIdeal.Value
import proofs.«118912_g17257178596104_cont_sun_c4_603_23_alg».proof.Proof.Spec
import proofs.«118912_g17257178596104_cont_sun_c4_603_23_alg».proof.Proof.KernelPieces
import proofs.«118912_g17257178596104_cont_sun_c4_603_23_alg».proof.Proof.KernelCases
import Idealize.ShloMosaic.Lib.Pipeline.Value
import Idealize.ShloMosaic.Lib.StableHlo.Run
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.HandValue

open Cert.KernelIdeal Cert.KernelIdeal.Gen Cert.KernelIdeal.Cases Cert.KernelIdeal.Pieces Cert.SageLayer

variable (m : (ℓ : Loc nD τ sig) → Buf (Elt Ideal) ℓ) (ρ : Dev nD → PrngReg)

/-- The six arguments on core `c`, as the specification's arrays. -/
abbrev argX (c : Dev nD) : SFeat.Idx → EReal := m ((c : Thread nD τ).loc main_arg0)
abbrev argA (c : Dev nD) : SAdj.Idx → EReal := m ((c : Thread nD τ).loc main_arg1)
abbrev argW (c : Dev nD) : SWgt.Idx → EReal := m ((c : Thread nD τ).loc main_arg2)
abbrev argB (c : Dev nD) : SVec.Idx → EReal := m ((c : Thread nD τ).loc main_arg3)
abbrev argG (c : Dev nD) : SVec.Idx → EReal := m ((c : Thread nD τ).loc main_arg4)
abbrev argBeta (c : Dev nD) : SVec.Idx → EReal := m ((c : Thread nD τ).loc main_arg5)

/-- The layer of the six arguments on core `c`. -/
abbrev layer (c : Dev nD) : SFeat.Idx → EReal := out (argX m c) (argA m c) (argW m c) (argB m c) (argG m c) (argBeta m c)

/-! ## What the host prepares: the weight halves and the three row vectors -/

theorem wLeft_arr (c : Dev nD) : (V m c main_v0 : S128x128.Idx → EReal)
    = extractStridedSlice S128x128 ![0, 0] (argW m c) slices_S128x256_S128x128_0_0 := by
  dsimp only [Gen.V, Gen.hostOps0]; after_results; try rfl

theorem wRight_arr (c : Dev nD) : (V m c main_v1 : S128x128.Idx → EReal)
    = extractStridedSlice S128x128 ![0, 128] (argW m c) slices_S128x256_S128x128_0_128 := by
  dsimp only [Gen.V, Gen.hostOps0]; after_results; try rfl

theorem scale_arr (c : Dev nD) : (V m c main_v2 : S1x128.Idx → EReal)
    = shapeCast S1x128 (argG m c) shapeCasts_S128_S1x128 := by
  dsimp only [Gen.V, Gen.hostOps0]; after_results; try rfl

theorem shift_arr (c : Dev nD) : (V m c main_v3 : S1x128.Idx → EReal)
    = shapeCast S1x128 (argBeta m c) shapeCasts_S128_S1x128 := by
  dsimp only [Gen.V, Gen.hostOps0]; after_results; try rfl

theorem bias_arr (c : Dev nD) : (V m c main_v4 : S1x128.Idx → EReal)
    = shapeCast S1x128 (argB m c) shapeCasts_S128_S1x128 := by
  dsimp only [Gen.V, Gen.hostOps0]; after_results; try rfl

/-- The left half's entry (q, k) is the weights' entry (q, k). -/
theorem wLeft_at (W : S128x256.Idx → EReal) (q k : Fin 128) :
    extractStridedSlice S128x128 ![0, 0] W slices_S128x256_S128x128_0_0 (ix2 q k) = W (ix2 q (colL k)) := by
  unfold extractStridedSlice
  congr 1
  funext a
  apply Fin.ext
  match a with
  | ⟨0, _⟩ => show 0 + q.val = q.val; omega
  | ⟨1, _⟩ => show 0 + k.val = k.val; omega

/-- The right half's entry (q, k) is the weights' entry (q, 128 + k). -/
theorem wRight_at (W : S128x256.Idx → EReal) (q k : Fin 128) :
    extractStridedSlice S128x128 ![0, 128] W slices_S128x256_S128x128_0_128 (ix2 q k) = W (ix2 q (colR k)) := by
  unfold extractStridedSlice
  congr 1
  funext a
  apply Fin.ext
  match a with
  | ⟨0, _⟩ => show 0 + q.val = q.val; omega
  | ⟨1, _⟩ => show 128 + k.val = 128 + k.val; rfl

/-- A vector laid out as one row: the row's entry j is the vector's entry j. -/
theorem row_at (v : S128.Idx → EReal) (j : Fin 128) :
    shapeCast S1x128 v shapeCasts_S128_S1x128 (ix2 (0 : Fin 1) j) = v (ix1 j) := by
  refine shapeCast_apply _ _ _ (ix1 j) ?_
  rw [Shape.rowMajor_val_one, Shape.rowMajor_val_two]
  show j.val = (0 : Fin 1).val * 128 + j.val
  simp

/-! ## The windows' blocks -/

/-- Where each window's block sits: the adjacency and result blocks move down with the point,
    the other six windows' one block is the whole array. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ k0_off1 (grid0.coords t) = ![400 * t.val, 0] :=
  (by decide +kernel : ∀ t : Fin grid0.N, _)

/-- Row `p` of point `t`'s block is row 400 t + p of the array. -/
abbrev rowOf (t : Fin cfg0.N) (p : Fin 400) : Fin 10000 :=
  ⟨400 * t.val + p.val, by have h1 := t.isLt; have h2 : cfg0.N = 25 := N_0; have h3 := p.isLt; omega⟩

theorem featBlk_eq (c : Dev nD) (t : Fin cfg0.N) : featBlk m c t = argX m c := by
  funext j
  show iblk m c 1 t j = _
  unfold iblk
  rw [View.read_apply]
  show V m c main_arg0 _ = _
  rw [V_main_arg0]
  congr 1
  funext a
  apply Fin.ext
  obtain ⟨-, ⟨e0, e1⟩, -⟩ := idx_facts t
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

theorem scaleBlk_eq (c : Dev nD) (t : Fin cfg0.N) :
    scaleBlk m c t = shapeCast S1x128 (argG m c) shapeCasts_S128_S1x128 := by
  rw [← scale_arr]
  funext j
  show iblk m c 2 t j = _
  unfold iblk
  rw [View.read_apply]
  show V m c main_v2 _ = V m c main_v2 j
  congr 1
  funext a
  apply Fin.ext
  obtain ⟨-, -, ⟨e0, e1⟩, -⟩ := idx_facts t
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

theorem shiftBlk_eq (c : Dev nD) (t : Fin cfg0.N) :
    shiftBlk m c t = shapeCast S1x128 (argBeta m c) shapeCasts_S128_S1x128 := by
  rw [← shift_arr]
  funext j
  show iblk m c 3 t j = _
  unfold iblk
  rw [View.read_apply]
  show V m c main_v3 _ = V m c main_v3 j
  congr 1
  funext a
  apply Fin.ext
  obtain ⟨-, -, -, ⟨e0, e1⟩, -⟩ := idx_facts t
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

theorem wLeftBlk_eq (c : Dev nD) (t : Fin cfg0.N) :
    wLeftBlk m c t = extractStridedSlice S128x128 ![0, 0] (argW m c) slices_S128x256_S128x128_0_0 := by
  rw [← wLeft_arr]
  funext j
  show iblk m c 4 t j = _
  unfold iblk
  rw [View.read_apply]
  show V m c main_v0 _ = V m c main_v0 j
  congr 1
  funext a
  apply Fin.ext
  obtain ⟨-, -, -, -, ⟨e0, e1⟩, -⟩ := idx_facts t
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem wRightBlk_eq (c : Dev nD) (t : Fin cfg0.N) :
    wRightBlk m c t = extractStridedSlice S128x128 ![0, 128] (argW m c) slices_S128x256_S128x128_0_128 := by
  rw [← wRight_arr]
  funext j
  show iblk m c 5 t j = _
  unfold iblk
  rw [View.read_apply]
  show V m c main_v1 _ = V m c main_v1 j
  congr 1
  funext a
  apply Fin.ext
  obtain ⟨-, -, -, -, -, ⟨e0, e1⟩, -⟩ := idx_facts t
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

theorem biasBlk_eq (c : Dev nD) (t : Fin cfg0.N) :
    biasBlk m c t = shapeCast S1x128 (argB m c) shapeCasts_S128_S1x128 := by
  rw [← bias_arr]
  funext j
  show iblk m c 6 t j = _
  unfold iblk
  rw [View.read_apply]
  show V m c main_v4 _ = V m c main_v4 j
  congr 1
  funext a
  apply Fin.ext
  obtain ⟨-, -, -, -, -, -, ⟨e0, e1⟩, -⟩ := idx_facts t
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

/-- The adjacency block's entry (p, l) is the adjacency matrix's entry (400 t + p, l). -/
theorem adj_at (c : Dev nD) (t : Fin cfg0.N) (p : Fin 400) (l : Fin 10000) :
    adjBlk m c t (ix2 p l) = argA m c (ix2 (rowOf t p) l) := by
  show iblk m c 0 t (ix2 p l) = _
  unfold iblk
  rw [View.read_apply]
  show V m c main_arg1 _ = _
  rw [V_main_arg1]
  congr 1
  funext a
  apply Fin.ext
  obtain ⟨⟨e0, e1⟩, -⟩ := idx_facts t
  match a with
  | ⟨0, _⟩ => show win0_0.index t (0 : Fin 2) * 400 + 1 * p.val = 400 * t.val + p.val; rw [e0]; omega
  | ⟨1, _⟩ => show win0_0.index t (1 : Fin 2) * 10000 + 1 * l.val = l.val; rw [e1]; omega

/-- The point's rows of a 10000-row matrix: entry (p, k) is the matrix's entry (400 t + p, k). -/
theorem rowsAt_apply {e : EltTy} (t : Fin cfg0.N) (x : Vec Ideal S10000x128 e) (p : Fin 400) (k : Fin 128) :
    rowsAt (grid0.coords t) x (ix2 p k) = x (ix2 (rowOf t p) k) := by
  show x _ = x _
  congr 1
  funext a
  apply Fin.ext
  have e := (idx_facts t).2.2.2.2.2.2.2.2
  match a with
  | ⟨0, _⟩ => show k0_off1 (grid0.coords t) 0 + 1 * p.val = 400 * t.val + p.val; rw [e]; show 400 * t.val + 1 * p.val = _; omega
  | ⟨1, _⟩ => show k0_off1 (grid0.coords t) 1 + 1 * k.val = k.val; rw [e]; show 0 + 1 * k.val = _; omega

/-! ## The kept matrices are the normalised features -/

theorem normed_wide (c : Dev nD) (r : Fin 10000) (k : Fin 128) :
    k0_pay2 (featBlk m c t0) (scaleBlk m c t0) (shiftBlk m c t0) (ix2 r k)
      = normed (argX m c) (argG m c) (argBeta m c) r k := by
  refine (pay2_apply (featBlk m c t0) (scaleBlk m c t0) (shiftBlk m c t0) r k).trans ?_
  rw [featBlk_eq, scaleBlk_eq, shiftBlk_eq, row_at, row_at]
  rfl

theorem normed_narrow (c : Dev nD) (r : Fin 10000) (k : Fin 128) :
    k0_pay3 (featBlk m c t0) (scaleBlk m c t0) (shiftBlk m c t0) (ix2 r k)
      = normed (argX m c) (argG m c) (argBeta m c) r k := by
  refine (pay3_apply (featBlk m c t0) (scaleBlk m c t0) (shiftBlk m c t0) r k).trans ?_
  rw [featBlk_eq, scaleBlk_eq, shiftBlk_eq, row_at, row_at]
  rfl

/-! ## From blocks to the array -/

set_option maxHeartbeats 1600000 in
/-- What point `t` writes back is block `t` of the layer. -/
theorem flushed_eq (c : Dev nD) (t : Fin cfg0.N) :
    (dats m 0 c).flushed 7 t = ((cfg0.win 7).blk t).view.read (Elt Ideal) (layer m c) := by
  rw [Cert.KernelIdeal.Value.flushed7, block_eq]
  funext j
  obtain ⟨p, q, rfl⟩ : ∃ (p : Fin 400) (q : Fin 128), j = ix2 p q := ⟨j 0, j 1, eq_ix2 j⟩
  show k0_pay4 (adjBlk m c t) (k0_pay3 (featBlk m c t0) (scaleBlk m c t0) (shiftBlk m c t0))
      (rowsAt (grid0.coords t) (k0_pay2 (featBlk m c t0) (scaleBlk m c t0) (shiftBlk m c t0)))
      (rowsAt (grid0.coords t) (featBlk m c t)) (wLeftBlk m c t) (wRightBlk m c t) (biasBlk m c t) (ix2 p q)
    = layer m c (((cfg0.win 7).blk t).view.emb (ix2 p q))
  have hemb : ((cfg0.win 7).blk t).view.emb (ix2 p q) = ix2 (rowOf t p) q := by
    funext a
    apply Fin.ext
    obtain ⟨-, -, -, -, -, -, -, ⟨e0, e1⟩, -⟩ := idx_facts t
    match a with
    | ⟨0, _⟩ => show win0_7.index t (0 : Fin 2) * 400 + 1 * p.val = 400 * t.val + p.val; rw [e0]; omega
    | ⟨1, _⟩ => show win0_7.index t (1 : Fin 2) * 128 + 1 * q.val = q.val; rw [e1]; omega
  rw [hemb]
  refine (pay4_apply (adjBlk m c t) (k0_pay3 (featBlk m c t0) (scaleBlk m c t0) (shiftBlk m c t0))
      (rowsAt (grid0.coords t) (k0_pay2 (featBlk m c t0) (scaleBlk m c t0) (shiftBlk m c t0)))
      (rowsAt (grid0.coords t) (featBlk m c t)) (wLeftBlk m c t) (wRightBlk m c t) (biasBlk m c t) p q).trans ?_
  have e1 : ∀ k : Fin 128, rowsAt (F := Ideal) (e := .f32) (grid0.coords t) (k0_pay2 (featBlk m c t0) (scaleBlk m c t0) (shiftBlk m c t0)) (ix2 p k)
      = normed (argX m c) (argG m c) (argBeta m c) (rowOf t p) k :=
    fun k => (rowsAt_apply (e := .f32) t (k0_pay2 (featBlk m c t0) (scaleBlk m c t0) (shiftBlk m c t0)) p k).trans (normed_wide m c (rowOf t p) k)
  have e2 : ∀ (l : Fin 10000) (k : Fin 128), k0_pay3 (featBlk m c t0) (scaleBlk m c t0) (shiftBlk m c t0) (ix2 l k)
      = normed (argX m c) (argG m c) (argBeta m c) l k := normed_narrow m c
  have e3 : ∀ l : Fin 10000, adjBlk m c t (ix2 p l) = argA m c (ix2 (rowOf t p) l) := adj_at m c t p
  have e4 : ∀ k : Fin 128, wLeftBlk m c t (ix2 q k) = argW m c (ix2 q (colL k)) :=
    fun k => by rw [wLeftBlk_eq, wLeft_at]
  have e5 : ∀ k : Fin 128, wRightBlk m c t (ix2 q k) = argW m c (ix2 q (colR k)) :=
    fun k => by rw [wRightBlk_eq, wRight_at]
  have e6 : biasBlk m c t (ix2 (0 : Fin 1) q) = argB m c (ix1 q) := by rw [biasBlk_eq, row_at]
  have e7 : rowsAt (F := Ideal) (e := .f32) (grid0.coords t) (featBlk m c t) (ix2 p q) = argX m c (ix2 (rowOf t p) q) := by
    rw [rowsAt_apply (e := .f32) t (featBlk m c t) p q, featBlk_eq]
  simp only [e1, e2, e3, e4, e5, e6, e7]
  rfl

/-- An index of the array lies in point `t`'s block iff each coordinate lies in the block's range. -/
theorem mem_blk (t : Fin cfg0.N) (i : S10000x128.Idx) :
    i ∈ ((cfg0.win 7).blk t).view.set ↔ ∀ a : Fin 2, win0_7.index t a * S400x128.size a ≤ (i a).val
      ∧ (i a).val < win0_7.index t a * S400x128.size a + S400x128.size a := by
  show i ∈ ((View.whole main_v5).slice (win0_7.rect t)).set ↔ _
  rw [View.set_slice_whole, Rect.mem_set_unit]
  exact Iff.rfl

/-- Every entry of the result lies in the block of the point its row belongs to. -/
theorem cover (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  refine ⟨⟨(i 0).val / 400, by omega⟩, flush0_7 _, ?_⟩
  rw [mem_blk]
  obtain ⟨-, -, -, -, -, -, -, ⟨e0, e1⟩, -⟩ := idx_facts ⟨(i 0).val / 400, by omega⟩
  intro a
  match a with
  | ⟨0, _⟩ =>
    show win0_7.index _ (0 : Fin 2) * 400 ≤ (i 0).val ∧ (i 0).val < win0_7.index _ (0 : Fin 2) * 400 + 400
    rw [e0]; dsimp only; omega
  | ⟨1, _⟩ =>
    show win0_7.index _ (1 : Fin 2) * 128 ≤ (i 1).val ∧ (i 1).val < win0_7.index _ (1 : Fin 2) * 128 + 128
    rw [e1]; omega

/-- The result array after the run is the layer. -/
theorem final (c : Dev nD) : (dats m 0 c).arrAt 7 cfg0.N = layer m c :=
  (dats m 0 c).arrAt_eq_of_cover 7 (layer m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v5) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.HandValue

end
-- ==== Proof.RefRun.lean ====
/-
  The reference program's run, read back as one pure term of its six arguments.

  The program is a straight line of fifty-five array operations once its three helper functions (the
  variance, the select inside it, the rectifier) are read at their call sites. Run in order from any
  memory, the result buffer ends at the composition of those operations applied to the arguments, and
  the arguments are left as they were. The composition is written in stages: the row sums, the mean,
  the centred features, the variance (with its guard on the divisor), the normalised features, the
  neighbour aggregation, the concatenation, the contraction with the transposed weights, the bias,
  the rectifier and the residual.
-/
import proofs.«118912_g17257178596104_cont_sun_c4_603_23_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, stage by stage -/

/-- Each row's sum, as a column. -/
def rowSum (Y : FVec F S10000x128 .f32) : FVec F S10000x1 .f32 :=
  broadcastInDim S10000x1 ![0] bcast_S10000_S10000x1_0
    (Host.reduceAdd Y (constant S_ .f32 0x00000000#32) reducesTo_S10000x128_S10000_d1 h_S_)

/-- Each row's mean, as a column: the row sum over 128. -/
def meanCol (X : FVec F S10000x128 .f32) : FVec F S10000x1 .f32 :=
  Host.divf (rowSum X) (broadcastInDim S10000x1 ![] bcast_S_S10000x1 (constant S_ .f32 0x43000000#32))

/-- The features with their row's mean taken away. -/
def centred (X : FVec F S10000x128 .f32) : FVec F S10000x128 .f32 :=
  subf X (broadcastInDim S10000x128 ![0, 1] bcast_S10000x1_S10000x128_0_1 (meanCol X))

/-- The variance's divisor: 128 less the zero degrees of freedom given as an integer. -/
def divisor : FVec F S_ .f32 :=
  subf (constant S_ .f32 0x43000000#32) (sitofp .f32 (constantI S_ 32 0#32))

/-- Each row's variance, as a column: the sum of squared deviations over the divisor where the
    divisor is positive, and the not-a-number literal elsewhere. -/
def varCol (X : FVec F S10000x128 .f32) : FVec F S10000x1 .f32 :=
  select (broadcastInDim S10000x1 ![] bcast_S_S10000x1 (cmpf .ogt (divisor (F := F)) (constant S_ .f32 0x00000000#32)))
    (Host.divf (rowSum (mulf (centred X) (centred X))) (broadcastInDim S10000x1 ![] bcast_S_S10000x1 (divisor (F := F))))
    (broadcastInDim S10000x1 ![] bcast_S_S10000x1 (id (constant S_ .f32 0x7FC00000#32)))

/-- Each row's standard deviation after the stabiliser is added, as a column. -/
def sdCol (X : FVec F S10000x128 .f32) : FVec F S10000x1 .f32 :=
  Host.sqrt (addf (varCol X) (broadcastInDim S10000x1 ![] bcast_S_S10000x1 (constant S_ .f32 0x3727C5AC#32)))

/-- A vector of length 128 laid along every row. -/
def alongRows (v : FVec F S128 .f32) : FVec F S10000x128 .f32 :=
  broadcastInDim S10000x128 ![0, 1] bcast_S1x128_S10000x128_0_1 (broadcastInDim S1x128 ![1] bcast_S128_S1x128_1 v)

/-- The normalised features, scaled and shifted. -/
def normedArr (X : FVec F S10000x128 .f32) (g β : FVec F S128 .f32) : FVec F S10000x128 .f32 :=
  addf (mulf (Host.divf (centred X) (broadcastInDim S10000x128 ![0, 1] bcast_S10000x1_S10000x128_0_1 (sdCol X))) (alongRows g))
    (alongRows β)

/-- The neighbour aggregation: the adjacency contracted with the normalised features. -/
def neighArr (X : FVec F S10000x128 .f32) (A : FVec F S10000x10000 .f32) (g β : FVec F S128 .f32) : FVec F S10000x128 .f32 :=
  Host.dotGeneral dot_S10000x10000_S10000x128_S10000x128_1_0_0_1_n_n none A (normedArr X g β)

/-- The normalised features and their aggregation side by side. -/
def catArr (X : FVec F S10000x128 .f32) (A : FVec F S10000x10000 .f32) (g β : FVec F S128 .f32) : FVec F S10000x256 .f32 :=
  concatenate S10000x256 1 [⟨S10000x128, normedArr X g β⟩, ⟨S10000x128, neighArr X A g β⟩]
    concatenates_S10000x128_S10000x128_S10000x256_d1

/-- The concatenation contracted with the transposed weights, plus the bias. -/
def linArr (X : FVec F S10000x128 .f32) (A : FVec F S10000x10000 .f32) (W : FVec F S128x256 .f32) (b g β : FVec F S128 .f32) :
    FVec F S10000x128 .f32 :=
  addf (Host.dotGeneral dot_S10000x256_S256x128_S10000x128_1_0_0_1_n_n none (catArr X A g β)
      (transpose S256x128 [1, 0] W transposes_S128x256_S256x128_1_0))
    (alongRows b)

/-- The reference's result: the rectified linear map plus the features. -/
def refOut (X : FVec F S10000x128 .f32) (A : FVec F S10000x10000 .f32) (W : FVec F S128x256 .f32) (b g β : FVec F S128 .f32) :
    FVec F S10000x128 .f32 :=
  addf (maximumf (linArr X A W b g β) (broadcastInDim S10000x128 ![] bcast_S_S10000x128 (constant S_ .f32 0x00000000#32))) X

/-! ## The operations, in order -/

/-- The fifty-five operations: the helpers' operations stand where they are called, over that call's own buffers. -/
abbrev ops : List (HloOp τ sig (Elt F)) :=
  [ StableHlo.nullary main_cst (constant S_ .f32 0x00000000#32),
    StableHlo.binary main_arg0 main_cst main_v0 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v0 main_v1 (broadcastInDim S10000x1 ![0] bcast_S10000_S10000x1_0 : (⟨S10000, .f32⟩ : BufTy).Contents (Elt F) → (⟨S10000x1, .f32⟩ : BufTy).Contents (Elt F)),
    StableHlo.nullary main_cst_0 (constant S_ .f32 0x43000000#32),
    StableHlo.unary main_cst_0 main_v2 (broadcastInDim S10000x1 ![] bcast_S_S10000x1 : (⟨S_, .f32⟩ : BufTy).Contents (Elt F) → (⟨S10000x1, .f32⟩ : BufTy).Contents (Elt F)),
    StableHlo.binary main_v1 main_v2 main_v3 (Host.divf : (⟨S10000x1, .f32⟩ : BufTy).Contents (Elt F) → (⟨S10000x1, .f32⟩ : BufTy).Contents (Elt F) → (⟨S10000x1, .f32⟩ : BufTy).Contents (Elt F)),
    StableHlo.nullary main_c (constantI S_ 32 0#32),
    StableHlo.TRef.nullary main_call0.cst (constant S_ .f32 0x00000000#32),
    StableHlo.TRef.binary (TRef.of main_arg0 : TRef sig ⟨S10000x128, .f32⟩) main_call0.cst main_call0.v0 (fun x v => Host.reduceAdd x v reducesTo_S10000x128_S10000_d1 h_S_),
    StableHlo.TRef.unary main_call0.v0 main_call0.v1 (broadcastInDim S10000x1 ![0] bcast_S10000_S10000x1_0),
    StableHlo.TRef.nullary main_call0.cst_0 (constant S_ .f32 0x43000000#32),
    StableHlo.TRef.unary main_call0.cst_0 main_call0.v2 (broadcastInDim S10000x1 ![] bcast_S_S10000x1),
    StableHlo.TRef.binary main_call0.v1 main_call0.v2 main_call0.v3 Host.divf,
    StableHlo.TRef.unary main_call0.v3 main_call0.v4 (broadcastInDim S10000x128 ![0, 1] bcast_S10000x1_S10000x128_0_1),
    StableHlo.TRef.binary (TRef.of main_arg0 : TRef sig ⟨S10000x128, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S10000_d1 h_S_),
    StableHlo.TRef.unary main_call0.v9 main_call0.v10 (broadcastInDim S10000x1 ![0] bcast_S10000_S10000x1_0),
    StableHlo.TRef.unary main_call0.v8 main_call0.v11 (broadcastInDim S10000x1 ![] bcast_S_S10000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S10000x1 ![] bcast_S_S10000x1),
    StableHlo.TRef.ternary main_call0.v13 main_call0.v12 main_call0.call0.v1 main_call0.call0.v2 (fun p a b => select (broadcastInDim S10000x1 ![] bcast_S_S10000x1 p) a b),
    StableHlo.unary main_v3 main_v5 (broadcastInDim S10000x128 ![0, 1] bcast_S10000x1_S10000x128_0_1 : (⟨S10000x1, .f32⟩ : BufTy).Contents (Elt F) → (⟨S10000x128, .f32⟩ : BufTy).Contents (Elt F)),
    StableHlo.binary main_arg0 main_v5 main_v6 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v7 (broadcastInDim S10000x1 ![] bcast_S_S10000x1 : (⟨S_, .f32⟩ : BufTy).Contents (Elt F) → (⟨S10000x1, .f32⟩ : BufTy).Contents (Elt F)),
    StableHlo.binary main_v4 main_v7 main_v8 (addf : (⟨S10000x1, .f32⟩ : BufTy).Contents (Elt F) → (⟨S10000x1, .f32⟩ : BufTy).Contents (Elt F) → (⟨S10000x1, .f32⟩ : BufTy).Contents (Elt F)),
    StableHlo.unary main_v8 main_v9 (Host.sqrt : (⟨S10000x1, .f32⟩ : BufTy).Contents (Elt F) → (⟨S10000x1, .f32⟩ : BufTy).Contents (Elt F)),
    StableHlo.unary main_v9 main_v10 (broadcastInDim S10000x128 ![0, 1] bcast_S10000x1_S10000x128_0_1 : (⟨S10000x1, .f32⟩ : BufTy).Contents (Elt F) → (⟨S10000x128, .f32⟩ : BufTy).Contents (Elt F)),
    StableHlo.binary main_v6 main_v10 main_v11 (Host.divf : (⟨S10000x128, .f32⟩ : BufTy).Contents (Elt F) → (⟨S10000x128, .f32⟩ : BufTy).Contents (Elt F) → (⟨S10000x128, .f32⟩ : BufTy).Contents (Elt F)),
    StableHlo.unary main_arg4 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S10000x128 ![0, 1] bcast_S1x128_S10000x128_0_1 : (⟨S1x128, .f32⟩ : BufTy).Contents (Elt F) → (⟨S10000x128, .f32⟩ : BufTy).Contents (Elt F)),
    StableHlo.binary main_v11 main_v13 main_v14 (mulf : (⟨S10000x128, .f32⟩ : BufTy).Contents (Elt F) → (⟨S10000x128, .f32⟩ : BufTy).Contents (Elt F) → (⟨S10000x128, .f32⟩ : BufTy).Contents (Elt F)),
    StableHlo.unary main_arg5 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S10000x128 ![0, 1] bcast_S1x128_S10000x128_0_1 : (⟨S1x128, .f32⟩ : BufTy).Contents (Elt F) → (⟨S10000x128, .f32⟩ : BufTy).Contents (Elt F)),
    StableHlo.binary main_v14 main_v16 main_v17 (addf : (⟨S10000x128, .f32⟩ : BufTy).Contents (Elt F) → (⟨S10000x128, .f32⟩ : BufTy).Contents (Elt F) → (⟨S10000x128, .f32⟩ : BufTy).Contents (Elt F)),
    StableHlo.binary main_arg1 main_v17 main_v18 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.binary main_v17 main_v18 main_v19 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg2 main_v20 ((transpose S256x128 [1, 0] · transposes_S128x256_S256x128_1_0) : (⟨S128x256, .f32⟩ : BufTy).Contents (Elt F) → (⟨S256x128, .f32⟩ : BufTy).Contents (Elt F)),
    StableHlo.binary main_v19 main_v20 main_v21 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg3 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S10000x128 ![0, 1] bcast_S1x128_S10000x128_0_1 : (⟨S1x128, .f32⟩ : BufTy).Contents (Elt F) → (⟨S10000x128, .f32⟩ : BufTy).Contents (Elt F)),
    StableHlo.binary main_v21 main_v23 main_v24 (addf : (⟨S10000x128, .f32⟩ : BufTy).Contents (Elt F) → (⟨S10000x128, .f32⟩ : BufTy).Contents (Elt F) → (⟨S10000x128, .f32⟩ : BufTy).Contents (Elt F)),
    StableHlo.TRef.nullary main_call1.cst (constant S_ .f32 0x00000000#32),
    StableHlo.TRef.unary main_call1.cst main_call1.v0 (broadcastInDim S10000x128 ![] bcast_S_S10000x128),
    StableHlo.TRef.binary (TRef.of main_v24 : TRef sig ⟨S10000x128, .f32⟩) main_call1.v0 main_call1.v1 maximumf,
    StableHlo.binary main_v25 main_arg0 main_v26 (addf : (⟨S10000x128, .f32⟩ : BufTy).Contents (Elt F) → (⟨S10000x128, .f32⟩ : BufTy).Contents (Elt F) → (⟨S10000x128, .f32⟩ : BufTy).Contents (Elt F)) ]

set_option maxRecDepth 4096 in
/-- The program is that straight line: the helpers unfolded at their calls, sequencing reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., binary_bufs_sub .., unary_bufs_sub .., binary_bufs_sub ..,
    unary_bufs_sub .., unary_bufs_sub .., binary_bufs_sub .., nullary_bufs_sub .., unary_bufs_sub .., binary_bufs_sub ..,
    binary_bufs_sub ..⟩

/-! ## What each buffer holds after the line -/

attribute [local irreducible] Host.reduceAdd concatenate transpose broadcastInDim in
set_option maxRecDepth 8192 in
set_option maxHeartbeats 1600000 in
/-- The fold at the result buffer is the composed term, by computation: each operation's result decides whether
    the buffer read is the one it writes, and the typed references' casts are the identity at literal references. -/
theorem out_eq (V : Valuation τ sig (Elt F)) :
    after ops V (main_v26 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl

/-! ## The run -/

/-- On every device, for any float values, from any memory with zero counters: every weakly fair execution of
    the program terminates with the result buffer at the composed term of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.HandRun

end
-- ==== Proof.RefValue.lean ====
/-
  The reference's composed term, read entry by entry, is the layer.

  Each stage of the composed term is read at explicit coordinates: a row sum is the sum over the row's 128
  entries, the mean column holds the row means, the guard on the variance's divisor holds because the divisor
  is the row length 128 (above zero), so the variance column holds the row variances; the quotient by the square
  root of the variance plus the stabiliser is the product with the reciprocal square root, because that sum is
  strictly positive; the first contraction is the neighbour aggregation; the second contraction, over the 256
  columns of the concatenation against the transposed weights, splits into its two halves of 128.
-/
import proofs.«118912_g17257178596104_cont_sun_c4_603_23_alg».proof.Proof.RefRun
import proofs.«118912_g17257178596104_cont_sun_c4_603_23_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.ReferenceIdeal.HandValue

open Cert.ReferenceIdeal Cert.ReferenceIdeal.Gen Cert.ReferenceIdeal.HandRun Idealize.ShloMosaic Idealize.ShloMosaic.ValueIdx
open Cert.SageLayer (mean variance normed neigh colL colR outAt rowLen eps)

/-! ## The row sums, the mean, the centred features -/

/-- A row's sum, read in its column. -/
theorem rowSum_apply (Y : FVec Ideal S10000x128 .f32) (r : Fin 10000) :
    rowSum (F := Ideal) Y (ix2 r (0 : Fin 1)) = ∑ k : Fin 128, Y (ix2 r k) := by
  unfold rowSum
  rw [broadcastInDim_apply ![0] bcast_S10000_S10000x1_0 _ (ix2 r (0 : Fin 1)) (ix1 r)
      (fun a => match a with | ⟨0, _⟩ => rfl),
    hostReduceAdd_apply, Ideal.hostReduceAdd_single reducesTo_S10000x128_S10000_d1 (by decide : S10000x128.Reduces [1] S10000),
    constant_apply, Ideal.ofBits_zero_f32, zero_add]
  refine Finset.sum_congr rfl fun k _ => congrArg Y ?_
  funext a
  match a with
  | ⟨0, _⟩ => rfl
  | ⟨1, _⟩ => rfl

/-- The mean column holds each row's mean. -/
theorem meanCol_apply (X : FVec Ideal S10000x128 .f32) (r : Fin 10000) :
    meanCol (F := Ideal) X (ix2 r (0 : Fin 1)) = mean X r := by
  unfold meanCol
  rw [hostDivf_apply, rowSum_apply, broadcastInDim_scalar_apply, constant_apply]
  rfl

/-- A column laid along the rows reads the column at the row. -/
theorem alongCols_apply (c : FVec Ideal S10000x1 .f32) (r : Fin 10000) (j : Fin 128) :
    broadcastInDim S10000x128 ![0, 1] bcast_S10000x1_S10000x128_0_1 c (ix2 r j) = c (ix2 r (0 : Fin 1)) :=
  broadcastInDim_apply ![0, 1] bcast_S10000x1_S10000x128_0_1 c (ix2 r j) (ix2 r (0 : Fin 1))
    (fun a => match a with | ⟨0, _⟩ => rfl | ⟨1, _⟩ => rfl)

/-- The centred features are the features less their row's mean. -/
theorem centred_apply (X : FVec Ideal S10000x128 .f32) (r : Fin 10000) (j : Fin 128) :
    centred (F := Ideal) X (ix2 r j) = X (ix2 r j) - mean X r := by
  unfold centred
  rw [subf_apply, alongCols_apply, meanCol_apply]

/-! ## The variance -/

/-- The divisor is the row length: 128 less the integer zero. -/
theorem divisor_apply (i : S_.Idx) : divisor (F := Ideal) i = rowLen := by
  unfold divisor
  rw [subf_apply, constant_apply, sitofp_apply, constantI_apply]
  show Ideal.ofBits .f32 0x43000000#32 - (((0#32 : BitVec 32).toInt : ℝ) : EReal) = rowLen
  rw [BitVec.toInt_zero, Int.cast_zero, EReal.coe_zero, sub_zero]
  rfl

/-- The guard on the divisor holds: the row length is above zero. -/
theorem guard_apply (i : S10000x1.Idx) :
    broadcastInDim S10000x1 ![] bcast_S_S10000x1
      (cmpf .ogt (divisor (F := Ideal)) (constant (F := Ideal) S_ .f32 0x00000000#32)) i = 1#1 := by
  rw [broadcastInDim_scalar_apply, cmpf_apply, divisor_apply, constant_apply, Ideal.ofBits_zero_f32, Ideal.cmpf_def]
  show BitVec.ofBool (decide ((0 : EReal) < rowLen)) = 1#1
  rw [decide_eq_true Cert.SageLayer.rowLen_pos]
  rfl

/-- The variance column holds each row's variance. -/
theorem varCol_apply (X : FVec Ideal S10000x128 .f32) (r : Fin 10000) :
    varCol (F := Ideal) X (ix2 r (0 : Fin 1)) = variance X r := by
  unfold varCol
  rw [select_apply, guard_apply, select_one, hostDivf_apply, rowSum_apply, broadcastInDim_scalar_apply, divisor_apply]
  show _ = Ideal.div (∑ k : Fin 128, (X (ix2 r k) - mean X r) * (X (ix2 r k) - mean X r)) rowLen
  refine congrArg (fun s => Ideal.div s rowLen) (Finset.sum_congr rfl fun k _ => ?_)
  rw [mulf_apply, centred_apply]

/-- The deviation column holds the square root of each row's variance plus the stabiliser. -/
theorem sdCol_apply (X : FVec Ideal S10000x128 .f32) (r : Fin 10000) :
    sdCol (F := Ideal) X (ix2 r (0 : Fin 1)) = Ideal.sqrt (variance X r + eps) := by
  unfold sdCol
  show Ideal.sqrt (addf (varCol (F := Ideal) X) _ (ix2 r (0 : Fin 1))) = _
  rw [addf_apply, varCol_apply, broadcastInDim_scalar_apply, constant_apply]
  rfl

/-! ## The normalised features -/

/-- A vector laid along every row reads the vector at the column. -/
theorem alongRows_apply (v : FVec Ideal S128 .f32) (r : Fin 10000) (j : Fin 128) :
    alongRows (F := Ideal) v (ix2 r j) = v (ix1 j) := by
  unfold alongRows
  rw [broadcastInDim_apply ![0, 1] bcast_S1x128_S10000x128_0_1 _ (ix2 r j) (ix2 (0 : Fin 1) j)
      (fun a => match a with | ⟨0, _⟩ => rfl | ⟨1, _⟩ => rfl),
    broadcastInDim_apply ![1] bcast_S128_S1x128_1 v (ix2 (0 : Fin 1) j) (ix1 j)
      (fun a => match a with | ⟨0, _⟩ => rfl)]

/-- The normalised array is the normalised features: the quotient by the root is the product with the reciprocal root. -/
theorem normedArr_apply (X : FVec Ideal S10000x128 .f32) (g β : FVec Ideal S128 .f32) (r : Fin 10000) (j : Fin 128) :
    normedArr (F := Ideal) X g β (ix2 r j) = normed X g β r j := by
  unfold normedArr
  rw [addf_apply, mulf_apply, hostDivf_apply, centred_apply, alongCols_apply, sdCol_apply, alongRows_apply, alongRows_apply,
    Cert.SageLayer.div_sqrt_eq_mul_rsqrt _ _ (Cert.SageLayer.variance_add_eps_pos X r)]
  rfl

/-! ## The two contractions -/

/-- The aggregation array is the neighbour aggregation. -/
theorem neighArr_apply (X : FVec Ideal S10000x128 .f32) (A : FVec Ideal S10000x10000 .f32) (g β : FVec Ideal S128 .f32)
    (r : Fin 10000) (k : Fin 128) :
    neighArr (F := Ideal) X A g β (ix2 r k) = neigh X A g β r k := by
  unfold neighArr
  show Host.dotGeneral (DotDims.plain 10000 10000 128) none A (normedArr (F := Ideal) X g β) (ix2 r k) = _
  rw [StackMember.dotGeneral_plain_apply]
  show _ = ∑ l : Fin 10000, A (ix2 r l) * normed X g β l k
  exact Finset.sum_congr rfl fun l _ => by rw [normedArr_apply]

/-- The concatenation's left half is the normalised features. -/
theorem catArr_left (X : FVec Ideal S10000x128 .f32) (A : FVec Ideal S10000x10000 .f32) (g β : FVec Ideal S128 .f32)
    (r : Fin 10000) (k : Fin 128) :
    catArr (F := Ideal) X A g β (ix2 r (colL k)) = normed X g β r k := by
  unfold catArr
  rw [concatenate_pair_apply_left 1 _ _ concatenates_S10000x128_S10000x128_S10000x256_d1 (ix2 r (colL k)) rfl (ix2 r k)
      (fun b => match b with | ⟨0, _⟩ => rfl | ⟨1, _⟩ => rfl),
    normedArr_apply]

/-- The concatenation's right half is the neighbour aggregation. -/
theorem catArr_right (X : FVec Ideal S10000x128 .f32) (A : FVec Ideal S10000x10000 .f32) (g β : FVec Ideal S128 .f32)
    (r : Fin 10000) (k : Fin 128) :
    catArr (F := Ideal) X A g β (ix2 r (colR k)) = neigh X A g β r k := by
  unfold catArr
  rw [concatenate_pair_apply_right 1 _ _ concatenates_S10000x128_S10000x128_S10000x256_d1 (ix2 r (colR k)) rfl rfl (ix2 r k)
      (fun b => match b with | ⟨0, _⟩ => fun _ => rfl | ⟨1, _⟩ => fun h => absurd rfl h)
      (Nat.add_comm _ _),
    neighArr_apply]

/-- The linear map at an entry: the two half contractions plus the bias. -/
theorem linArr_apply (X : FVec Ideal S10000x128 .f32) (A : FVec Ideal S10000x10000 .f32) (W : FVec Ideal S128x256 .f32)
    (b g β : FVec Ideal S128 .f32) (r : Fin 10000) (j : Fin 128) :
    linArr (F := Ideal) X A W b g β (ix2 r j)
      = (∑ k : Fin 128, normed X g β r k * W (ix2 j (colL k)) + ∑ k : Fin 128, neigh X A g β r k * W (ix2 j (colR k)))
        + b (ix1 j) := by
  unfold linArr
  rw [addf_apply, alongRows_apply]
  refine congrArg (· + b (ix1 j)) ?_
  show Host.dotGeneral (DotDims.plain 10000 256 128) none (catArr (F := Ideal) X A g β)
      (transpose S256x128 [1, 0] W transposes_S128x256_S256x128_1_0) (ix2 r j) = _
  rw [StackMember.dotGeneral_plain_apply, Cert.SageLayer.sum_halves]
  refine congrArg₂ (· + ·) (Finset.sum_congr rfl fun k _ => ?_) (Finset.sum_congr rfl fun k _ => ?_)
  · rw [catArr_left, transpose_ix2_apply]
  · rw [catArr_right, transpose_ix2_apply]

/-! ## The result -/

/-- The reference's composed term is the layer. -/
theorem refOut_eq (X : FVec Ideal S10000x128 .f32) (A : FVec Ideal S10000x10000 .f32) (W : FVec Ideal S128x256 .f32)
    (b g β : FVec Ideal S128 .f32) :
    HandRun.refOut (F := Ideal) X A W b g β = Cert.SageLayer.out X A W b g β := by
  funext i
  obtain ⟨r, j, rfl⟩ : ∃ (r : Fin 10000) (j : Fin 128), i = ix2 r j := ⟨i 0, i 1, eq_ix2 i⟩
  unfold HandRun.refOut
  rw [addf_apply, maximumf_apply, linArr_apply, broadcastInDim_scalar_apply, constant_apply, Ideal.ofBits_zero_f32]
  rfl

end Cert.ReferenceIdeal.HandValue

end
-- ==== Proof.lean ====
/-
  The certificate of one graph layer: a row-blocked kernel against its plain reference.

  The layer normalises each row of a 10000 by 128 feature matrix (mean, biased variance, a
  stabiliser under the square root, a scale and a shift), aggregates the normalised rows with a
  dense 10000 by 10000 adjacency matrix, applies a 256-column linear map to the normalised and
  the aggregated rows side by side, adds a bias, clamps below at zero and adds the input back.

  The kernel computes the normalised matrix once, at the first of its 25 grid points, keeps it,
  and at every point produces 400 result rows from a 400-row block of the adjacency matrix; it
  multiplies by the reciprocal square root where the reference divides by the square root, and
  adds two 128-column contractions where the reference contracts a concatenation over 256
  columns.  Over the extended reals both are the function `Cert.SageLayer.out`:
  the kernel by reading its body at one entry and its blocks through the grid
  (`Cert.KernelIdeal.HandValue.run`), the reference by running its host operations and reading
  them at one entry (`Cert.ReferenceIdeal.HandRun.run`, `Cert.ReferenceIdeal.HandValue.refOut_eq`).
  The variance is a sum of squares over a positive count and the stabiliser is positive, so the
  two spellings of the normalisation agree at every input; no finiteness is used.

  The three frames are the generated frame runs (the reference's is its run with the result
  dropped); the idealisation rewrote nothing, so `preserves` is `True`.
-/
import proofs.«118912_g17257178596104_cont_sun_c4_603_23_alg».proof.Defs
import proofs.«118912_g17257178596104_cont_sun_c4_603_23_alg».proof.Proof.Gen.Kernel
import proofs.«118912_g17257178596104_cont_sun_c4_603_23_alg».proof.Proof.Gen.Kernel.Skeleton
import proofs.«118912_g17257178596104_cont_sun_c4_603_23_alg».proof.Proof.Gen.Kernel.Launch
import proofs.«118912_g17257178596104_cont_sun_c4_603_23_alg».proof.Proof.Gen.Kernel.Points
import proofs.«118912_g17257178596104_cont_sun_c4_603_23_alg».proof.Proof.Gen.Kernel.Frame
import proofs.«118912_g17257178596104_cont_sun_c4_603_23_alg».proof.Proof.Gen.KernelIdeal
import proofs.«118912_g17257178596104_cont_sun_c4_603_23_alg».proof.Proof.Gen.KernelIdeal.Skeleton
import proofs.«118912_g17257178596104_cont_sun_c4_603_23_alg».proof.Proof.Gen.KernelIdeal.Launch
import proofs.«118912_g17257178596104_cont_sun_c4_603_23_alg».proof.Proof.Gen.KernelIdeal.Points
import proofs.«118912_g17257178596104_cont_sun_c4_603_23_alg».proof.Proof.Gen.KernelIdeal.Frame
import proofs.«118912_g17257178596104_cont_sun_c4_603_23_alg».proof.Proof.Gen.ReferenceIdeal
import proofs.«118912_g17257178596104_cont_sun_c4_603_23_alg».proof.Proof.Gen.Pre_finite_inputs
import proofs.«118912_g17257178596104_cont_sun_c4_603_23_alg».proof.Proof.Gen.KernelIdeal.Value
import proofs.«118912_g17257178596104_cont_sun_c4_603_23_alg».proof.Proof.KernelValue
import proofs.«118912_g17257178596104_cont_sun_c4_603_23_alg».proof.Proof.RefRun
import proofs.«118912_g17257178596104_cont_sun_c4_603_23_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories that agree on the six arguments both programs end with the layer of those arguments. -/
theorem algebraic : Cert.algebraic_KernelIdeal_ReferenceIdeal := by
  intro m ρ m' ρ' _ hagree
  refine ⟨fun c => Cert.KernelIdeal.HandValue.layer m c, Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  exact Cert.ReferenceIdeal.HandValue.refOut_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
